-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S1024 : Shape := ⟨1, ![1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S131072x1024 .f32) (main_arg1 : FVec F S1024 .f32) (main_arg2 : FVec F S1024 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S131072x1024 : Shape := ⟨2, ![131072, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S131072x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S131072x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  broadcasts_S1x1024_S2048x1024 : S1x1024.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S131072x1024.size a
  hwx0_3 : ∀ i : grid0.Coords, EltTy.bits .f32 = 32 ∨ (Rect.block (s := S131072x1024) S2048x1024.size (cc0_transform_3 i) (hinb0_3 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S131072x1024 : Shape := ⟨2, ![131072, 1024]⟩
abbrev S1024 : Shape := ⟨1, ![1024]⟩
abbrev S_ : Shape := ⟨0, ![]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .i1⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S131072x1024, .f32⟩
  | .hbm, ⟨15, _⟩ => ⟨S131072x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)

variable [Facts₀]

class Facts : Prop extends Facts₀ where

variable [Facts]
-- ==== Proof.DropoutScale.lean ====
/-
  The function both programs compute, and the one law of the extended reals that joins their two spellings.

  The operator is `x @ dropout(diag(vec))`: the off-diagonal entries of `diag(vec)` are zero, so the product is a
  scaling of column `j` of `x` by the diagonal entry `j` after dropout: `vec j / (1 - p)` where the draw `u j`
  keeps it (`u j ≥ p`), zero where it is dropped. Here `p` is the f32 word of `0.1` and `1 - p` the f32 word `D` of
  `0.9`, which is the rational `7549747 / 8388608`.

  One side divides by `D`, the other multiplies by the reciprocal `8388608 / 7549747` of `D`. On the extended reals
  division by a real that is not zero IS the product with its reciprocal, at the infinities too, so the two agree at
  every `vec j` and no finiteness is used anywhere.
-/
import Idealize.ShloMosaic.PureOps.Ideal
import Idealize.ShloMosaic.Lib.ValueIdx

noncomputable section

namespace Cert.DropoutScale

open Idealize.ShloMosaic Idealize.ShloMosaic.ValueIdx

/-! ## The divisor and its reciprocal -/

/-- The f32 word of `0.9` (sign 0, exponent 126, significand `2^23 + 6710886`) denotes `15099494 · 2^-24`, that is
    `7549747 / 8388608`. -/
theorem keep_word : Ideal.ofBits .f32 0x3F666666#32 = ((7549747 / 8388608 : ℝ) : EReal) := by
  simp [Ideal.ofBits, Ideal.ieee, -EReal.coe_mul]; norm_num

/-- Multiplying by `8388608 / 7549747` is dividing by the word of `0.9`: that fraction is the reciprocal of the word's
    value, and the quotient by a nonzero real is the product with its reciprocal on every extended real. -/
theorem mul_recip_keep (v : EReal) :
    v * ((8388608 / 7549747 : ℝ) : EReal) = Ideal.div v (Ideal.ofBits .f32 0x3F666666#32) := by
  rw [keep_word, Ideal.div_coe (by norm_num) v]
  have e : (1 / (7549747 / 8388608) : ℝ) = 8388608 / 7549747 := by norm_num
  rw [e]

/-! ## The specification -/

/-- The array `x`: 131072 rows of 1024 columns. -/
abbrev Rows : Shape := ⟨2, ![131072, 1024]⟩
/-- The diagonal `vec` and the draws `u`: one entry per column. -/
abbrev Cols : Shape := ⟨1, ![1024]⟩

/-- The column of an entry of `x`. -/
abbrev col (i : Rows.Idx) : Cols.Idx := ix1 (⟨(i 1).val, idx2_lt1 i⟩ : Fin 1024)

/-- Diagonal entry `j` after dropout: `vec j / D` where `u j ≥ p`, zero elsewhere. -/
def diagEntry (vec u : FVec Ideal Cols .f32) (j : Cols.Idx) : EReal :=
  Scalar.select (FloatOps.cmpf (F := Ideal) .oge (u j) (Ideal.ofBits .f32 0x3DCCCCCD#32))
    (Ideal.div (vec j) (Ideal.ofBits .f32 0x3F666666#32)) (Ideal.ofBits .f32 0x00000000#32)

/-- The result: every entry of `x` times the dropped-out diagonal entry of its column. -/
def scaled (x : FVec Ideal Rows .f32) (vec u : FVec Ideal Cols .f32) : FVec Ideal Rows .f32 :=
  fun i => x i * diagEntry vec u (col i)

end Cert.DropoutScale

end
-- ==== Proof.ReferenceScale.lean ====
/-
  The reference, read index by index, is the specification: entry `i` of its result is `x i` times the select, on
  `u ≥ p` at `i`'s column, between `vec / D` at that column and zero. The two broadcasts (a row of 1024 to `[1, 1024]`,
  then to every row) only carry the column along.
-/
import proofs.«427892_j5970004542089_3_alg».proof.Proof.Gen.ReferenceIdeal.Read
import proofs.«427892_j5970004542089_3_alg».proof.Proof.DropoutScale

noncomputable section

namespace Cert.ReferenceIdeal.Scale

open Idealize.ShloMosaic Idealize.ShloMosaic.ValueIdx
open Cert.ReferenceIdeal Cert.ReferenceIdeal.Read

/-- Through both broadcasts an entry of the result reads the scale at its own column. -/
theorem col_eq (i : S131072x1024.Idx) : idx_main_v5 (idx_main_v6 i) = Cert.DropoutScale.col i :=
  funext fun a => Fin.ext (by match a with | ⟨0, _⟩ => rfl)

/-- The reference's last stage is the specification of its three arguments. -/
theorem result_eq (x0 : (⟨S131072x1024, .f32⟩ : BufTy).Contents (Elt Ideal)) (x1 x2 : (⟨S1024, .f32⟩ : BufTy).Contents (Elt Ideal)) :
    val_main_v7 (F := Ideal) x0 x1 x2 = Cert.DropoutScale.scaled x0 x1 x2 := by
  funext i
  rw [val_main_v7_apply, val_main_v6_apply, val_main_v5_apply, col_eq, val_main_v4_apply, val_main_v1_apply,
    val_main_v3_apply, val_main_v0_apply, val_main_v2_apply, val_main_call0_v1_apply]
  rfl

end Cert.ReferenceIdeal.Scale

end
-- ==== Proof.KernelBlock.lean ====
/-
  What one grid point of the kernel writes back, entry by entry.

  The grid has 64 points; point `t` works on rows `2048 t … 2048 t + 2047` of `x` and on the whole `[1, 1024]` rows
  of `vec` and `u` (the host has only re-laid the two vectors of 1024 entries as one row each). Entry `(r, q)` of the
  block it leaves is `x` at that entry times the select, on `u q ≥ p`, between `vec q` times the named reciprocal
  and zero. The named reciprocal is `8388608 / 7549747`, so by the law of the specification module the product is
  `vec q / D`, and the entry is the specification at row `2048 t + r`, column `q`.
-/
import proofs.«427892_j5970004542089_3_alg».proof.Proof.Gen.KernelIdeal.Value
import proofs.«427892_j5970004542089_3_alg».proof.Proof.DropoutScale
import Idealize.ShloMosaic.Lib.Pipeline.Value
import Idealize.ShloMosaic.Lib.ValueIdx
import Idealize.ShloMosaic.Lib.StableHlo.Run
import Idealize.ShloMosaic.PureOps.IdealRules

noncomputable section

open Idealize.ShloMosaic Idealize.ShloMosaic.TcCoe Idealize.SL.Sem Idealize.ShloMosaic.ValueIdx
open Idealize.ShloMosaic.Pipeline (Dat)

namespace Cert.KernelIdeal.Scale

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The named reciprocal -/

/-- The kernel's folded word is read as the exact reciprocal of the reference's divisor. -/
theorem inv_keep : Named.named (F := Ideal) κ "inv_keep" (φ := .f32) 0x3F8E38E4#32 = ((8388608 / 7549747 : ℝ) : EReal) :=
  IdealRules.named_const.ideal_named_scalar _ _ _ _ rfl

/-! ## One entry of the block a point leaves, over any three blocks -/

/-- Entry `q` of a one-row block. -/
abbrev lane (q : Fin 1024) : S1x1024.Idx := ix2 (0 : Fin 1) q

/-- The column of a block entry. -/
abbrev laneOf (y : S2048x1024.Idx) : Fin 1024 := ⟨(y 1).val, idx2_lt1 y⟩

/-- Entry `y` of what the body leaves from blocks `X`, `VEC`, `U`: `X y` times the dropped-out diagonal entry of `y`'s
    column, the product with the named reciprocal rewritten as the quotient by `D`. -/
theorem block_entry (X : Vec Ideal S2048x1024 .f32) (VEC U : Vec Ideal S1x1024 .f32) (y : S2048x1024.Idx) :
    out0_3 X VEC U y
      = X y * Scalar.select (FloatOps.cmpf (F := Ideal) .oge (U (lane (laneOf y))) (Ideal.ofBits .f32 0x3DCCCCCD#32))
          (Ideal.div (VEC (lane (laneOf y))) (Ideal.ofBits .f32 0x3F666666#32)) (Ideal.ofBits .f32 0x00000000#32) := by
  have e0 : ix3_0 y = y := funext fun a => Fin.ext (by match a with | ⟨0, _⟩ => rfl | ⟨1, _⟩ => rfl)
  have e1 : ix3_1 y = lane (laneOf y) := funext fun a => Fin.ext (by match a with | ⟨0, _⟩ => rfl | ⟨1, _⟩ => rfl)
  have e2 : ix3_2 y = lane (laneOf y) := funext fun a => Fin.ext (by match a with | ⟨0, _⟩ => rfl | ⟨1, _⟩ => rfl)
  unfold out0_3
  rw [canon3_eq]
  simp only [View.ld_unit_zero (S := S2048x1024) hz, View.ld_unit_zero (S := S1x1024) hz]
  show X (ix3_0 y) * Scalar.select (FloatOps.cmpf (F := Ideal) .oge (U (ix3_1 y)) (Ideal.ofBits .f32 0x3DCCCCCD#32))
      (VEC (ix3_2 y) * Named.named (F := Ideal) κ "inv_keep" (φ := .f32) 0x3F8E38E4#32) (Ideal.ofBits .f32 0x00000000#32) = _
  rw [inv_keep, Cert.DropoutScale.mul_recip_keep, e0, e1, e2]

/-! ## The blocks a point is given -/

/-- The printed index maps over the 64 points: `x`'s block and the result's move together, block `t` of rows at point `t`,
    and the two one-row windows stay at their only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The host re-lays `vec` as one row before the region. -/
theorem V_vec (c : Dev nD) : (V m c main_v0 : S1x1024.Idx → EReal)
    = shapeCast S1x1024 (m ((c : Thread nD τ).loc main_arg1)) shapeCasts_S1024_S1x1024 := by
  dsimp only [V, hostOps0]; after_results; rfl

/-- The host re-lays `u` as one row before the region. -/
theorem V_u (c : Dev nD) : (V m c main_v1 : S1x1024.Idx → EReal)
    = shapeCast S1x1024 (m ((c : Thread nD τ).loc main_arg2)) shapeCasts_S1024_S1x1024 := by
  dsimp only [V, hostOps0]; after_results; rfl

/-- Entry `q` of the one row is entry `q` of the vector. -/
theorem row_apply (v : S1024.Idx → EReal) (q : Fin 1024) :
    shapeCast S1x1024 v shapeCasts_S1024_S1x1024 (lane q) = v (ix1 q) :=
  shapeCast_apply v shapeCasts_S1024_S1x1024 (lane q) (ix1 q) (by
    rw [Shape.rowMajor_val_one, Shape.rowMajor_val_two]
    show q.val = 0 * 1024 + q.val
    omega)

/-- `x`'s block at point `t`, entry `y`, is `x` at row `2048 t + y 0`, column `y 1`. -/
theorem xblk_apply (c : Dev nD) (t : Fin cfg0.N) (y : S2048x1024.Idx) (k : S131072x1024.Idx)
    (hk0 : (k 0).val = t.val * 2048 + (y 0).val) (hk1 : (k 1).val = (y 1).val) :
    (iblk m c 0 t : Vec Ideal S2048x1024 .f32) y = (m ((c : Thread nD τ).loc main_arg0) : S131072x1024.Idx → EReal) k := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 2048 + 1 * (y 0).val = (k 0).val; omega
  | ⟨1, _⟩ => show win0_0.index t (1 : Fin 2) * 1024 + 1 * (y 1).val = (k 1).val; omega

/-- `vec`'s block at any point, entry `q` of its row, is `vec q`. -/
theorem vecblk_apply (c : Dev nD) (t : Fin cfg0.N) (q : Fin 1024) :
    (iblk m c 1 t : Vec Ideal S1x1024 .f32) (lane q) = (m ((c : Thread nD τ).loc main_arg1) : S1024.Idx → EReal) (ix1 q) := by
  obtain ⟨-, -, e2, e3, -⟩ := idx_facts t
  unfold iblk
  rw [View.read_apply]
  show V m c main_v0 _ = _
  rw [V_vec, ← row_apply (m ((c : Thread nD τ).loc main_arg1)) q]
  congr 1
  funext a
  apply Fin.ext
  match a with
  | ⟨0, _⟩ => show win0_1.index t (0 : Fin 2) * 1 + 1 * 0 = 0; omega
  | ⟨1, _⟩ => show win0_1.index t (1 : Fin 2) * 1024 + 1 * q.val = q.val; omega

/-- `u`'s block at any point, entry `q` of its row, is `u q`. -/
theorem ublk_apply (c : Dev nD) (t : Fin cfg0.N) (q : Fin 1024) :
    (iblk m c 2 t : Vec Ideal S1x1024 .f32) (lane q) = (m ((c : Thread nD τ).loc main_arg2) : S1024.Idx → EReal) (ix1 q) := by
  obtain ⟨-, -, -, -, e4, e5, -⟩ := idx_facts t
  unfold iblk
  rw [View.read_apply]
  show V m c main_v1 _ = _
  rw [V_u, ← row_apply (m ((c : Thread nD τ).loc main_arg2)) q]
  congr 1
  funext a
  apply Fin.ext
  match a with
  | ⟨0, _⟩ => show win0_2.index t (0 : Fin 2) * 1 + 1 * 0 = 0; omega
  | ⟨1, _⟩ => show win0_2.index t (1 : Fin 2) * 1024 + 1 * q.val = q.val; omega

end Cert.KernelIdeal.Scale

end
-- ==== Proof.KernelArray.lean ====
/-
  From the 64 blocks to the whole result array.

  Point `t` writes back block `t` of rows of ONE function of the three arguments, the specification: an entry of the block
  is the specification at the array index under it (the block module's entry lemma, with the three input blocks read
  where that index says). Row `r` of the array lies in the block of point `r / 2048`, so the blocks cover the array and
  it ends holding the specification everywhere.
-/
import proofs.«427892_j5970004542089_3_alg».proof.Proof.KernelBlock

noncomputable section

open Idealize.ShloMosaic Idealize.ShloMosaic.TcCoe Idealize.SL.Sem Idealize.ShloMosaic.ValueIdx
open Idealize.ShloMosaic.Pipeline (Dat)

namespace Cert.KernelIdeal.Scale

open Cert.KernelIdeal Cert.KernelIdeal.Gen Cert.KernelIdeal.Value

variable (m : (ℓ : Loc nD τ sig) → Buf (Elt Ideal) ℓ) (ρ : Dev nD → PrngReg)

/-- The specification of the three arguments as launched, on core `c`. -/
abbrev spec (c : Dev nD) : S131072x1024.Idx → EReal :=
  Cert.DropoutScale.scaled (m ((c : Thread nD τ).loc main_arg0)) (m ((c : Thread nD τ).loc main_arg1)) (m ((c : Thread nD τ).loc main_arg2))

/-- WHAT POINT `t` WRITES BACK is block `t` of the specification. -/
theorem flushed_eq (c : Dev nD) (t : Fin cfg0.N) :
    (dats m 0 c).flushed 3 t = ((cfg0.win 3).blk t).view.read (Elt Ideal) (spec m c) := by
  obtain ⟨-, -, -, -, -, -, e6, e7⟩ := idx_facts t
  rw [flushed3]
  funext y
  show out0_3 (iblk m c 0 t) (iblk m c 1 t) (iblk m c 2 t) y = spec m c (((cfg0.win 3).blk t).view.emb y)
  have hy0 : (y 0).val < 2048 := (y 0).isLt
  have hy1 : (y 1).val < 1024 := (y 1).isLt
  have h0 : ((((cfg0.win 3).blk t).view.emb y) 0).val = t.val * 2048 + (y 0).val := by
    show win0_3.index t (0 : Fin 2) * 2048 + 1 * (y 0).val = _; omega
  have h1 : ((((cfg0.win 3).blk t).view.emb y) 1).val = (y 1).val := by
    show win0_3.index t (1 : Fin 2) * 1024 + 1 * (y 1).val = _; omega
  have hcol : Cert.DropoutScale.col (((cfg0.win 3).blk t).view.emb y) = ix1 (laneOf y) :=
    funext fun a => Fin.ext (by match a with | ⟨0, _⟩ => exact h1)
  refine (block_entry (iblk m c 0 t) (iblk m c 1 t) (iblk m c 2 t) y).trans ?_
  rw [xblk_apply m c t y (((cfg0.win 3).blk t).view.emb y) h0 h1, vecblk_apply m c t (laneOf y), ublk_apply m c t (laneOf y)]
  rw [← hcol]
  rfl

/-- An index of the array is in point `t`'s block iff each coordinate is in the block's range on its axis. -/
theorem mem_blk (t : Fin cfg0.N) (i : S131072x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v2).slice (win0_3.rect t)).set ↔ _
  rw [View.set_slice_whole, Rect.mem_set_unit]
  exact Iff.rfl

/-- Every entry of the array is in the block of the point its row names: `r / 2048`. -/
theorem covered (i : S131072x1024.Idx) :
    ∃ t : Fin cfg0.N, (cfg0.win 3).flush t = true ∧ i ∈ ((cfg0.win 3).blk t).view.set := by
  have hi0 : (i 0).val < 131072 := (i 0).isLt
  have hi1 : (i 1).val < 1024 := (i 1).isLt
  have hN : cfg0.N = 64 := N_0
  have hlt : (i 0).val / 2048 < cfg0.N := by rw [hN]; omega
  obtain ⟨-, -, -, -, -, -, e6, e7⟩ := idx_facts ⟨(i 0).val / 2048, hlt⟩
  have e6' : win0_3.index ⟨(i 0).val / 2048, hlt⟩ (0 : Fin 2) = (i 0).val / 2048 := e6
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val ∧ (i 0).val < win0_3.index ⟨(i 0).val / 2048, hlt⟩ (0 : Fin 2) * 2048 + 2048
    omega
  | ⟨1, _⟩ =>
    show win0_3.index ⟨(i 0).val / 2048, hlt⟩ (1 : Fin 2) * 1024 ≤ (i 1).val ∧ (i 1).val < win0_3.index ⟨(i 0).val / 2048, hlt⟩ (1 : Fin 2) * 1024 + 1024
    omega

/-- THE ARRAY after the run is the specification. -/
theorem final (c : Dev nD) : (dats m 0 c).arrAt 3 cfg0.N = spec m c :=
  (dats m 0 c).arrAt_eq_of_cover 3 (spec m c) (fun t _ => flushed_eq m c t) covered

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Scale

end
-- ==== Proof.lean ====
/-
  The kernel scales column `j` of `x` (131072 rows of 1024 columns) by the diagonal entry `j` of `diag(vec)` after
  dropout: `vec j` times the reciprocal of the keep probability where the draw `u j` is at least the drop probability,
  zero elsewhere. The reference divides `vec j` by the f32 word `D` of `0.9`; the kernel multiplies by one folded word,
  named `"inv_keep"` and read as the exact reciprocal `8388608 / 7549747` of `D = 7549747 / 8388608`.

  * `preserves`: the one ledger entry, the name's own statement.
  * `algebraic`: both result arrays are ONE function of the three arguments, the specification of
    Proof/DropoutScale.lean. The reference's stages read it off index by index (Proof/ReferenceScale.lean). On the
    kernel's side each of the 64 grid points writes back its 2048 rows of that function (Proof/KernelBlock.lean: an entry
    of the block, with the product by the named reciprocal rewritten as the quotient by `D`, a law that holds at every
    extended real), and the 64 blocks cover the array (Proof/KernelArray.lean). No finiteness is used.
  * the three frames: the two generated frames, and the reference's generated run with its result dropped.
-/
import proofs.«427892_j5970004542089_3_alg».proof.Defs
import proofs.«427892_j5970004542089_3_alg».proof.Proof.Gen.Kernel
import proofs.«427892_j5970004542089_3_alg».proof.Proof.Gen.Kernel.Skeleton
import proofs.«427892_j5970004542089_3_alg».proof.Proof.Gen.Kernel.Launch
import proofs.«427892_j5970004542089_3_alg».proof.Proof.Gen.Kernel.Points
import proofs.«427892_j5970004542089_3_alg».proof.Proof.Gen.Kernel.Frame
import proofs.«427892_j5970004542089_3_alg».proof.Proof.Gen.KernelIdeal
import proofs.«427892_j5970004542089_3_alg».proof.Proof.Gen.KernelIdeal.Skeleton
import proofs.«427892_j5970004542089_3_alg».proof.Proof.Gen.KernelIdeal.Launch
import proofs.«427892_j5970004542089_3_alg».proof.Proof.Gen.KernelIdeal.Points
import proofs.«427892_j5970004542089_3_alg».proof.Proof.Gen.KernelIdeal.Frame
import proofs.«427892_j5970004542089_3_alg».proof.Proof.Gen.ReferenceIdeal
import proofs.«427892_j5970004542089_3_alg».proof.Proof.Gen.Pre_finite_inputs
import proofs.«427892_j5970004542089_3_alg».proof.Proof.Gen.KernelIdeal.Value
import proofs.«427892_j5970004542089_3_alg».proof.Proof.Gen.ReferenceIdeal.Run
import proofs.«427892_j5970004542089_3_alg».proof.Proof.Gen.ReferenceIdeal.Read
import Idealize.ShloMosaic.Adequacy
import Idealize.ShloMosaic.Init
import proofs.«427892_j5970004542089_3_alg».proof.Proof.ReferenceScale
import proofs.«427892_j5970004542089_3_alg».proof.Proof.KernelArray

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: the table gives `"inv_keep"` the value `8388608 / 7549747`, and the printed constant is that
    value at the ideal instance. -/
theorem preserves : Cert.preserves_Kernel_KernelIdeal :=
  IdealRules.named_const.statement Cert.KernelIdeal.κ "inv_keep" .f32 0x3F8E38E4#32 ((8388608 / 7549747 : ℝ) : EReal) rfl

/-- Both programs end with the result array at the specification of arguments that agree. -/
theorem algebraic : Cert.algebraic_KernelIdeal_ReferenceIdeal := by
  intro m ρ m' ρ' _ hagree
  refine ⟨fun c => Cert.KernelIdeal.Scale.spec m c, Cert.KernelIdeal.Scale.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Scale.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
